-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16 .f32) (main_arg7 : FVec F S32x1 .f32) (main_arg8 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x10000 .f32) (main_arg1 : IVec S2x320000 32) (main_arg2 : IVec S200000x2 32) (main_arg3 : FVec F S10000x32 .f32) (main_arg4 : FVec F S32 .f32) (main_arg5 : FVec F S32x16 .f32) (main_arg6 : FVec F S16 .f32) (main_arg7 : FVec F S32x1 .f32) (main_arg8 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x32 .f32 := Host.absf main_arg3
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_v13 main_v16
-- ==== Kernel.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S200x10000 : Shape := ⟨2, ![200, 10000]⟩
abbrev S200x32 : Shape := ⟨2, ![200, 32]⟩
abbrev S330000x32 : Shape := ⟨2, ![330000, 32]⟩
abbrev S1x32 : Shape := ⟨2, ![1, 32]⟩
abbrev S10000x16 : Shape := ⟨2, ![10000, 16]⟩
abbrev S330000x16 : Shape := ⟨2, ![330000, 16]⟩
abbrev S1x16 : Shape := ⟨2, ![1, 16]⟩
abbrev S200000x1 : Shape := ⟨2, ![200000, 1]⟩
abbrev S200000 : Shape := ⟨1, ![200000]⟩
abbrev S200000x16 : Shape := ⟨2, ![200000, 16]⟩
abbrev S200000x32 : Shape := ⟨2, ![200000, 32]⟩
abbrev S1x1 : Shape := ⟨2, ![1, 1]⟩

abbrev nBuf : Space → Nat
  | .hbm => 120
  | .vmem => 5
  | .smem => 0
  | _ => 0

abbrev bufTy : (tb : Table) → Fin (tcTables nBuf tb) → BufTy
  | .hbm, ⟨0, _⟩ => ⟨S10000x10000, .f32⟩
  | .hbm, ⟨1, _⟩ => ⟨S2x320000, .i32⟩
  | .hbm, ⟨2, _⟩ => ⟨S200000x2, .i32⟩
  | .hbm, ⟨3, _⟩ => ⟨S10000x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x1, .f32⟩
  | .hbm, ⟨8, _⟩ => ⟨S1, .f32⟩
  | .hbm, ⟨9, _⟩ => ⟨S10000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S_, .f32⟩
  | .hbm, ⟨17, _⟩ => ⟨S330000, .f32⟩
  | .hbm, ⟨18, _⟩ => ⟨S_, .f32⟩
  | .hbm, ⟨19, _⟩ => ⟨S10000, .f32⟩
  | .hbm, ⟨20, _⟩ => ⟨S330000x1, .i32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S330000, .i32⟩
  | .hbm, ⟨25, _⟩ => ⟨S330000, .i1⟩
  | .hbm, ⟨26, _⟩ => ⟨S_, .i32⟩
  | .hbm, ⟨27, _⟩ => ⟨S330000, .i32⟩
  | .hbm, ⟨28, _⟩ => ⟨S330000, .i32⟩
  | .hbm, ⟨29, _⟩ => ⟨S330000, .i32⟩
  | .hbm, ⟨30, _⟩ => ⟨S330000x1, .i32⟩
  | .hbm, ⟨31, _⟩ => ⟨S330000, .f32⟩
  | .hbm, ⟨32, _⟩ => ⟨S_, .i32⟩
  | .hbm, ⟨33, _⟩ => ⟨S330000, .i32⟩
  | .hbm, ⟨34, _⟩ => ⟨S330000, .i1⟩
  | .hbm, ⟨35, _⟩ => ⟨S_, .i32⟩
  | .hbm, ⟨36, _⟩ => ⟨S330000, .i32⟩
  | .hbm, ⟨37, _⟩ => ⟨S330000, .i32⟩
  | .hbm, ⟨38, _⟩ => ⟨S330000, .i32⟩
  | .hbm, ⟨39, _⟩ => ⟨S330000x1, .i32⟩
  | .hbm, ⟨40, _⟩ => ⟨S330000, .f32⟩
  | .hbm, ⟨41, _⟩ => ⟨S330000, .f32⟩
  | .hbm, ⟨42, _⟩ => ⟨S10000x32, .f32⟩
  | .hbm, ⟨43, _⟩ => ⟨S_, .i32⟩
  | .hbm, ⟨44, _⟩ => ⟨S330000, .i32⟩
  | .hbm, ⟨45, _⟩ => ⟨S330000, .i1⟩
  | .hbm, ⟨46, _⟩ => ⟨S_, .i32⟩
  | .hbm, ⟨47, _⟩ => ⟨S330000, .i32⟩
  | .hbm, ⟨48, _⟩ => ⟨S330000, .i32⟩
  | .hbm, ⟨49, _⟩ => ⟨S330000, .i32⟩
  | .hbm, ⟨50, _⟩ => ⟨S330000x1, .i32⟩
  | .hbm, ⟨51, _⟩ => ⟨S330000x32, .f32⟩
  | .hbm, ⟨52, _⟩ => ⟨S330000x1, .f32⟩
  | .hbm, ⟨53, _⟩ => ⟨S330000x32, .f32⟩
  | .hbm, ⟨54, _⟩ => ⟨S330000x32, .f32⟩
  | .hbm, ⟨55, _⟩ => ⟨S_, .f32⟩
  | .hbm, ⟨56, _⟩ => ⟨S10000x32, .f32⟩
  | .hbm, ⟨57, _⟩ => ⟨S330000x1, .i32⟩
  | .hbm, ⟨58, _⟩ => ⟨S10000x32, .f32⟩
  | .hbm, ⟨59, _⟩ => ⟨S1x32, .f32⟩
  | .hbm, ⟨60, _⟩ => ⟨S10000x32, .f32⟩
  | .hbm, ⟨61, _⟩ => ⟨S10000x32, .f32⟩
  | .hbm, ⟨62, _⟩ => ⟨S_, .f32⟩
  | .hbm, ⟨63, _⟩ => ⟨S10000x32, .f32⟩
  | .hbm, ⟨64, _⟩ => ⟨S10000x32, .f32⟩
  | .hbm, ⟨65, _⟩ => ⟨S10000x16, .f32⟩
  | .hbm, ⟨66, _⟩ => ⟨S_, .i32⟩
  | .hbm, ⟨67, _⟩ => ⟨S330000, .i32⟩
  | .hbm, ⟨68, _⟩ => ⟨S330000, .i1⟩
  | .hbm, ⟨69, _⟩ => ⟨S_, .i32⟩
  | .hbm, ⟨70, _⟩ => ⟨S330000, .i32⟩
  | .hbm, ⟨71, _⟩ => ⟨S330000, .i32⟩
  | .hbm, ⟨72, _⟩ => ⟨S330000, .i32⟩
  | .hbm, ⟨73, _⟩ => ⟨S330000x1, .i32⟩
  | .hbm, ⟨74, _⟩ => ⟨S330000x16, .f32⟩
  | .hbm, ⟨75, _⟩ => ⟨S330000x1, .f32⟩
  | .hbm, ⟨76, _⟩ => ⟨S330000x16, .f32⟩
  | .hbm, ⟨77, _⟩ => ⟨S330000x16, .f32⟩
  | .hbm, ⟨78, _⟩ => ⟨S_, .f32⟩
  | .hbm, ⟨79, _⟩ => ⟨S10000x16, .f32⟩
  | .hbm, ⟨80, _⟩ => ⟨S330000x1, .i32⟩
  | .hbm, ⟨81, _⟩ => ⟨S10000x16, .f32⟩
  | .hbm, ⟨82, _⟩ => ⟨S1x16, .f32⟩
  | .hbm, ⟨83, _⟩ => ⟨S10000x16, .f32⟩
  | .hbm, ⟨84, _⟩ => ⟨S10000x16, .f32⟩
  | .hbm, ⟨85, _⟩ => ⟨S200000x1, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x16, .f32⟩
  | .hbm, ⟨96, _⟩ => ⟨S200000x1, .i32⟩
  | .hbm, ⟨97, _⟩ => ⟨S200000, .i32⟩
  | .hbm, ⟨98, _⟩ => ⟨S_, .i32⟩
  | .hbm, ⟨99, _⟩ => ⟨S200000, .i32⟩
  | .hbm, ⟨100, _⟩ => ⟨S200000, .i1⟩
  | .hbm, ⟨101, _⟩ => ⟨S_, .i32⟩
  | .hbm, ⟨102, _⟩ => ⟨S200000, .i32⟩
  | .hbm, ⟨103, _⟩ => ⟨S200000, .i32⟩
  | .hbm, ⟨104, _⟩ => ⟨S200000, .i32⟩
  | .hbm, ⟨105, _⟩ => ⟨S200000x1, .i32⟩
  | .hbm, ⟨106, _⟩ => ⟨S200000x16, .f32⟩
  | .hbm, ⟨107, _⟩ => ⟨S200000x32, .f32⟩
  | .hbm, ⟨108, _⟩ => ⟨S200000x1, .f32⟩
  | .hbm, ⟨109, _⟩ => ⟨S1x1, .f32⟩
  | .hbm, ⟨110, _⟩ => ⟨S200000x1, .f32⟩
  | .hbm, ⟨111, _⟩ => ⟨S200000x1, .f32⟩
  | .hbm, ⟨112, _⟩ => ⟨S200000x1, .f32⟩
  | .hbm, ⟨113, _⟩ => ⟨S200000x1, .f32⟩
  | .hbm, ⟨114, _⟩ => ⟨S_, .f32⟩
  | .hbm, ⟨115, _⟩ => ⟨S200000x1, .f32⟩
  | .hbm, ⟨116, _⟩ => ⟨S200000x1, .f32⟩
  | .hbm, ⟨117, _⟩ => ⟨S_, .f32⟩
  | .hbm, ⟨118, _⟩ => ⟨S200000x1, .f32⟩
  | .hbm, ⟨119, _⟩ => ⟨S200000x1, .f32⟩
  | .local _ .vmem, ⟨0, _⟩ => ⟨S200x10000, .f32⟩
  | .local _ .vmem, ⟨1, _⟩ => ⟨S200x10000, .f32⟩
  | .local _ .vmem, ⟨2, _⟩ => ⟨S10000x32, .f32⟩
  | .local _ .vmem, ⟨3, _⟩ => ⟨S200x32, .f32⟩
  | .local _ .vmem, ⟨4, _⟩ => ⟨S200x32, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_v90 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  inb_S200x32_S200x32_0_0 : ∀ a, (![0, 0] : Fin 2 → Nat) a + S200x32.size a ≤ S200x32.size a
  h_S200x32 : 0 < S200x32.numel
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x16_S200000x16_S200000x32_d1 : Shape.Concatenates [S200000x16, S200000x16] S200000x32 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S200x10000_S10000x32_S200x32_1_0_0_1_n_n_wf : DotDims.WF S200x10000 S10000x32 S200x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x16_S10000x16_1_0_0_1_n_n_wf : DotDims.WF S10000x32 S32x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  gather_S10000x16_S200000x1_S200000x16_1_0_n_n_0_1_116_wf : GatherDims.WF S10000x16 S200000x1 S200000x16 [1] [0] [] [0] [] 1 ![1, 16]
  dot_S200000x32_S32x1_S200000x1_1_0_0_1_n_n_wf : DotDims.WF S200000x32 S32x1 S200000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S10000x32.size a
  hwx0_1 : ∀ i : grid0.Coords, EltTy.bits .f32 = 32 ∨ (Rect.block (s := S10000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S10000x32.size a
  hwx0_2 : ∀ i : grid0.Coords, EltTy.bits .f32 = 32 ∨ (Rect.block (s := S10000x32) S200x32.size (cc0_transform_2 i) (hinb0_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def gather_S10000x16_S200000x1_S200000x16_1_0_n_n_0_1_116 : GatherDims S10000x16 S200000x1 S200000x16 where
  offsetDims := [1]
  collapsedSliceDims := [0]
  operandBatchingDims := []
  startIndicesBatchingDims := []
  startIndexMap := [0]
  indexVectorDim := 1
  sliceSizes := ![1, 16]
  wf := gather_S10000x16_S200000x1_S200000x16_1_0_n_n_0_1_116_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S200000x2 : Shape := ⟨2, ![200000, 2]⟩
abbrev S10000x32 : Shape := ⟨2, ![10000, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x32 : Shape := ⟨2, ![330000, 32]⟩
abbrev S1x32 : Shape := ⟨2, ![1, 32]⟩
abbrev S10000x16 : Shape := ⟨2, ![10000, 16]⟩
abbrev S330000x16 : Shape := ⟨2, ![330000, 16]⟩
abbrev S1x16 : Shape := ⟨2, ![1, 16]⟩
abbrev S200000x1 : Shape := ⟨2, ![200000, 1]⟩
abbrev S200000 : Shape := ⟨1, ![200000]⟩
abbrev S200000x16 : Shape := ⟨2, ![200000, 16]⟩
abbrev S200000x32 : Shape := ⟨2, ![200000, 32]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S10000x10000, .f32⟩
  | 1 => ⟨S2x320000, .i32⟩
  | 2 => ⟨S200000x2, .i32⟩
  | 3 => ⟨S10000x32, .f32⟩
  | 4 => ⟨S32, .f32⟩
  | 5 => ⟨S32x16, .f32⟩
  | 6 => ⟨S16, .f32⟩
  | 7 => ⟨S32x1, .f32⟩
  | 8 => ⟨S1, .f32⟩
  | 9 => ⟨S10000, .i32⟩
  | 10 => ⟨S1x320000, .i32⟩
  | 11 => ⟨S320000, .i32⟩
  | 12 => ⟨S330000, .i32⟩
  | 13 => ⟨S1x320000, .i32⟩
  | 14 => ⟨S320000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S10000, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S330000, .f32⟩
  | 42 => ⟨S10000x32, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000x32, .f32⟩
  | 52 => ⟨S330000x1, .f32⟩
  | 53 => ⟨S330000x32, .f32⟩
  | 54 => ⟨S330000x32, .f32⟩
  | 55 => ⟨S_, .f32⟩
  | 56 => ⟨S10000x32, .f32⟩
  | 57 => ⟨S330000x1, .i32⟩
  | 58 => ⟨S10000x32, .f32⟩
  | 59 => ⟨S1x32, .f32⟩
  | 60 => ⟨S10000x32, .f32⟩
  | 61 => ⟨S10000x32, .f32⟩
  | 62 => ⟨S_, .f32⟩
  | 63 => ⟨S10000x32, .f32⟩
  | 64 => ⟨S10000x32, .f32⟩
  | 65 => ⟨S10000, .i32⟩
  | 66 => ⟨S1x320000, .i32⟩
  | 67 => ⟨S320000, .i32⟩
  | 68 => ⟨S330000, .i32⟩
  | 69 => ⟨S1x320000, .i32⟩
  | 70 => ⟨S320000, .i32⟩
  | 71 => ⟨S330000, .i32⟩
  | 72 => ⟨S_, .f32⟩
  | 73 => ⟨S330000, .f32⟩
  | 74 => ⟨S_, .f32⟩
  | 75 => ⟨S10000, .f32⟩
  | 76 => ⟨S330000x1, .i32⟩
  | 77 => ⟨S10000, .f32⟩
  | 78 => ⟨S10000, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000, .f32⟩
  | 88 => ⟨S_, .i32⟩
  | 89 => ⟨S330000, .i32⟩
  | 90 => ⟨S330000, .i1⟩
  | 91 => ⟨S_, .i32⟩
  | 92 => ⟨S330000, .i32⟩
  | 93 => ⟨S330000, .i32⟩
  | 94 => ⟨S330000, .i32⟩
  | 95 => ⟨S330000x1, .i32⟩
  | 96 => ⟨S330000, .f32⟩
  | 97 => ⟨S330000, .f32⟩
  | 98 => ⟨S10000x16, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000x16, .f32⟩
  | 108 => ⟨S330000x1, .f32⟩
  | 109 => ⟨S330000x16, .f32⟩
  | 110 => ⟨S330000x16, .f32⟩
  | 111 => ⟨S_, .f32⟩
  | 112 => ⟨S10000x16, .f32⟩
  | 113 => ⟨S330000x1, .i32⟩
  | 114 => ⟨S10000x16, .f32⟩
  | 115 => ⟨S1x16, .f32⟩
  | 116 => ⟨S10000x16, .f32⟩
  | 117 => ⟨S10000x16, .f32⟩
  | 118 => ⟨S200000x1, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S10000x10000, .f32⟩

abbrev hbmTy0_1 (i : Nat) : BufTy := match i % 128 with
  | 0 => ⟨S200000x16, .f32⟩
  | 1 => ⟨S200000x1, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x16, .f32⟩
  | 12 => ⟨S200000x32, .f32⟩
  | 13 => ⟨S200000x1, .f32⟩
  | 14 => ⟨S1x1, .f32⟩
  | 15 => ⟨S200000x1, .f32⟩
  | 16 => ⟨S200000x1, .f32⟩
  | 17 => ⟨S200000x1, .f32⟩
  | 18 => ⟨S200000x1, .f32⟩
  | 19 => ⟨S_, .f32⟩
  | 20 => ⟨S200000x1, .f32⟩
  | 21 => ⟨S200000x1, .f32⟩
  | 22 => ⟨S_, .f32⟩
  | 23 => ⟨S200000x1, .f32⟩
  | 24 => ⟨S200000x1, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_16 : Ref sig .tc := ⟨.hbm, 120, rfl⟩
abbrev main_v91 : Ref sig .tc := ⟨.hbm, 121, rfl⟩
abbrev main_v92 : Ref sig .tc := ⟨.hbm, 122, rfl⟩
abbrev main_c_17 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_20 : Ref sig .tc := ⟨.hbm, 147, rfl⟩
abbrev main_v114 : Ref sig .tc := ⟨.hbm, 148, rfl⟩
abbrev main_v115 : Ref sig .tc := ⟨.hbm, 149, rfl⟩
abbrev main_cst_21 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x16_S200000x16_S200000x32_d1 : Shape.Concatenates [S200000x16, S200000x16] S200000x32 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x10000_S10000x32_S10000x32_1_0_0_1_n_n_wf : DotDims.WF S10000x10000 S10000x32 S10000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x16_S10000x16_1_0_0_1_n_n_wf : DotDims.WF S10000x32 S32x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  gather_S10000x16_S200000x1_S200000x16_1_0_n_n_0_1_116_wf : GatherDims.WF S10000x16 S200000x1 S200000x16 [1] [0] [] [0] [] 1 ![1, 16]
  dot_S200000x32_S32x1_S200000x1_1_0_0_1_n_n_wf : DotDims.WF S200000x32 S32x1 S200000x1 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def gather_S10000x16_S200000x1_S200000x16_1_0_n_n_0_1_116 : GatherDims S10000x16 S200000x1 S200000x16 where
  offsetDims := [1]
  collapsedSliceDims := [0]
  operandBatchingDims := []
  startIndicesBatchingDims := []
  startIndexMap := [0]
  indexVectorDim := 1
  sliceSizes := ![1, 16]
  wf := gather_S10000x16_S200000x1_S200000x16_1_0_n_n_0_1_116_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.BitsAround.lean ====
/-
  The graph-convolution program around its one kernel region. Before the region the host computes, from the edge
  list alone, the source and destination node of every edge (the given edges followed by one self-loop per node)
  and the symmetric normalisation 1/sqrt(deg src) * 1/sqrt(deg dst); the region multiplies the feature matrix by
  the first weight matrix, 200 rows at a time; after the region the host gathers, scales, scatter-adds and adds the
  bias (twice: 32 then 16 features), gathers the two rows of every candidate pair, and applies the logistic head.

  This module is about the lines around the region only: the contents every buffer holds when the region is
  entered (the lines before it applied to the launch contents), that the program is those lines, the region, and
  the later lines in order, that the later lines write only their own result buffers (never one of the three
  arrays the region stages, never an argument), and hence that each of the nine arguments is found by the region,
  and left at the end, exactly as launched.
-/
import proofs.«158041_j62182536511521_1_alg».proof.Proof.Gen.Kernel.Launch
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before and after the region -/

/-- Core `c`'s buffer contents when the region is entered: the 33 lines before it (edge endpoints, degrees,
    normalisation) applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, in their three stretches: the first aggregation up to the bias, the rectifier
    (a called function, three lines), and everything from the second product to the logistic head. -/
abbrev laterOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is the lines before the region, the region, and the later lines: so it reduces to the region
    continued by the later lines, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] hostOps0_sub hostOps0_fresh main_chain

/-- The later lines touch only unscoped TensorCore buffers: the region's arrays and the buffers that bypass it. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes one buffer, its own result; stretch by stretch, none of those is one of the three arrays the
    region stages (the feature matrix, the first weight matrix, the product). -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)

theorem later_keeps : ∀ ops ∈ (laterOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The arguments, before and after -/

/-- No line before the region writes the named buffer: each line's one written buffer is another reference. -/
local macro "before_untouched" : tactic => `(tactic| (
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No line after the region writes the named buffer. -/
local macro "later_untouched" : tactic => `(tactic| (
  simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by before_untouched))
theorem V_main_arg1 (c : Dev nD) : V m c main_arg1 = m ((c : Thread nD τ).loc main_arg1) :=
  StableHlo.after_of_forall_not_mem (b := Proc.devRef .tc main_arg1) _ _ (List.forall_iff_forall_mem.mp (by before_untouched))
theorem V_main_arg2 (c : Dev nD) : V m c main_arg2 = m ((c : Thread nD τ).loc main_arg2) :=
  StableHlo.after_of_forall_not_mem (b := Proc.devRef .tc main_arg2) _ _ (List.forall_iff_forall_mem.mp (by before_untouched))
theorem V_main_arg3 (c : Dev nD) : V m c main_arg3 = m ((c : Thread nD τ).loc main_arg3) :=
  StableHlo.after_of_forall_not_mem (b := Proc.devRef .tc main_arg3) _ _ (List.forall_iff_forall_mem.mp (by before_untouched))
theorem V_main_arg4 (c : Dev nD) : V m c main_arg4 = m ((c : Thread nD τ).loc main_arg4) :=
  StableHlo.after_of_forall_not_mem (b := Proc.devRef .tc main_arg4) _ _ (List.forall_iff_forall_mem.mp (by before_untouched))
theorem V_main_arg5 (c : Dev nD) : V m c main_arg5 = m ((c : Thread nD τ).loc main_arg5) :=
  StableHlo.after_of_forall_not_mem (b := Proc.devRef .tc main_arg5) _ _ (List.forall_iff_forall_mem.mp (by before_untouched))
theorem V_main_arg6 (c : Dev nD) : V m c main_arg6 = m ((c : Thread nD τ).loc main_arg6) :=
  StableHlo.after_of_forall_not_mem (b := Proc.devRef .tc main_arg6) _ _ (List.forall_iff_forall_mem.mp (by before_untouched))
theorem V_main_arg7 (c : Dev nD) : V m c main_arg7 = m ((c : Thread nD τ).loc main_arg7) :=
  StableHlo.after_of_forall_not_mem (b := Proc.devRef .tc main_arg7) _ _ (List.forall_iff_forall_mem.mp (by before_untouched))
theorem V_main_arg8 (c : Dev nD) : V m c main_arg8 = m ((c : Thread nD τ).loc main_arg8) :=
  StableHlo.after_of_forall_not_mem (b := Proc.devRef .tc main_arg8) _ _ (List.forall_iff_forall_mem.mp (by before_untouched))

/-- An argument the region does not stage ends as launched: no later line writes it, it is none of the region's
    arrays, and no line before the region wrote it. (The feature matrix and the first weight matrix ARE staged:
    they are read back through the region's own account of its input arrays instead.) -/
theorem W_main_arg1 (dats : (p : Fin 1) → (c : Dev nD) → Dat τ (Elt F) Unit ℕ (UR sig nD τ) ℕ (cfgs p) c) (c : Dev nD) :
    Pipeline.afterTail₀ cfgs dats 0 (V0 m) laterOps c main_arg1 = m ((c : Thread nD τ).loc main_arg1) := by
  unfold Pipeline.afterTail₀
  rw [StableHlo.after_of_forall_not_mem (b := Proc.devRef .tc main_arg1) _ _ (List.forall_iff_forall_mem.mp (by later_untouched)),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) laterOps c main_arg2 = m ((c : Thread nD τ).loc main_arg2) := by
  unfold Pipeline.afterTail₀
  rw [StableHlo.after_of_forall_not_mem (b := Proc.devRef .tc main_arg2) _ _ (List.forall_iff_forall_mem.mp (by later_untouched)),
    Pipeline.withArrays_of_ne _ c (V0 m c) _ main_arg2 (by exact (by decide : ∀ w, Pipeline.arrRef spec0 w ≠ main_arg2))]
  exact V_main_arg2 m c
theorem W_main_arg4 (dats : (p : Fin 1) → (c : Dev nD) → Dat τ (Elt F) Unit ℕ (UR sig nD τ) ℕ (cfgs p) c) (c : Dev nD) :
    Pipeline.afterTail₀ cfgs dats 0 (V0 m) laterOps c main_arg4 = m ((c : Thread nD τ).loc main_arg4) := by
  unfold Pipeline.afterTail₀
  rw [StableHlo.after_of_forall_not_mem (b := Proc.devRef .tc main_arg4) _ _ (List.forall_iff_forall_mem.mp (by later_untouched)),
    Pipeline.withArrays_of_ne _ c (V0 m c) _ main_arg4 (by exact (by decide : ∀ w, Pipeline.arrRef spec0 w ≠ main_arg4))]
  exact V_main_arg4 m c
theorem W_main_arg5 (dats : (p : Fin 1) → (c : Dev nD) → Dat τ (Elt F) Unit ℕ (UR sig nD τ) ℕ (cfgs p) c) (c : Dev nD) :
    Pipeline.afterTail₀ cfgs dats 0 (V0 m) laterOps c main_arg5 = m ((c : Thread nD τ).loc main_arg5) := by
  unfold Pipeline.afterTail₀
  rw [StableHlo.after_of_forall_not_mem (b := Proc.devRef .tc main_arg5) _ _ (List.forall_iff_forall_mem.mp (by later_untouched)),
    Pipeline.withArrays_of_ne _ c (V0 m c) _ main_arg5 (by exact (by decide : ∀ w, Pipeline.arrRef spec0 w ≠ main_arg5))]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) laterOps c main_arg6 = m ((c : Thread nD τ).loc main_arg6) := by
  unfold Pipeline.afterTail₀
  rw [StableHlo.after_of_forall_not_mem (b := Proc.devRef .tc main_arg6) _ _ (List.forall_iff_forall_mem.mp (by later_untouched)),
    Pipeline.withArrays_of_ne _ c (V0 m c) _ main_arg6 (by exact (by decide : ∀ w, Pipeline.arrRef spec0 w ≠ main_arg6))]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) laterOps c main_arg7 = m ((c : Thread nD τ).loc main_arg7) := by
  unfold Pipeline.afterTail₀
  rw [StableHlo.after_of_forall_not_mem (b := Proc.devRef .tc main_arg7) _ _ (List.forall_iff_forall_mem.mp (by later_untouched)),
    Pipeline.withArrays_of_ne _ c (V0 m c) _ main_arg7 (by exact (by decide : ∀ w, Pipeline.arrRef spec0 w ≠ main_arg7))]
  exact V_main_arg7 m c
theorem W_main_arg8 (dats : (p : Fin 1) → (c : Dev nD) → Dat τ (Elt F) Unit ℕ (UR sig nD τ) ℕ (cfgs p) c) (c : Dev nD) :
    Pipeline.afterTail₀ cfgs dats 0 (V0 m) laterOps c main_arg8 = m ((c : Thread nD τ).loc main_arg8) := by
  unfold Pipeline.afterTail₀
  rw [StableHlo.after_of_forall_not_mem (b := Proc.devRef .tc main_arg8) _ _ (List.forall_iff_forall_mem.mp (by later_untouched)),
    Pipeline.withArrays_of_ne _ c (V0 m c) _ main_arg8 (by exact (by decide : ∀ w, Pipeline.arrRef spec0 w ≠ main_arg8))]
  exact V_main_arg8 m c

end Cert.Kernel.Around

end
-- ==== Proof.BitsRegion.lean ====
/-
  The kernel region itself: one grid point multiplies a block of 200 rows of the feature matrix (all 10000
  columns) by the whole first weight matrix (10000 by 32) and stores the 200 by 32 product; fifty points cover the
  10000 rows. The feature block is fetched at every point, the weight matrix once (its block index never moves),
  the product block is written back at every point.

  Here: what the body leaves in the product's staging buffer as a function of the two input blocks, the body's
  Hoare triple, the region's proof data (each input buffer holds its block, the output buffer the product of the
  blocks), the body obligation at a generic point, the run of the whole program to the library's frame post, and
  from it the statement that every argument array ends as launched.
-/
import proofs.«158041_j62182536511521_1_alg».proof.Proof.BitsAround
import proofs.«158041_j62182536511521_1_alg».proof.Proof.Gen.Kernel.Skeleton
import proofs.«158041_j62182536511521_1_alg».proof.Proof.Gen.Kernel.Points
import Idealize.ShloMosaic.Lib.Ring
import Idealize.ShloMosaic.Lib.Tactic

set_option maxRecDepth 16384

noncomputable section

namespace Cert.Kernel.Region

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature matrix's staging buffer holds the point's 200 rows at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight matrix's staging buffer holds the whole matrix at every point: fetched at the first, and at a later
    point the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 200 by 10000 staging buffer, the whole 10000 by 32 one, the whole 200 by 32 one: the body's three
    accesses are of whole buffers. -/
abbrev rX : Rect S200x10000 := Rect.unit (s := S200x10000) ![0, 0] S200x10000.size inb_S200x10000_S200x10000_0_0
abbrev rW : Rect S10000x32 := Rect.unit (s := S10000x32) ![0, 0] S10000x32.size inb_S10000x32_S10000x32_0_0
abbrev rO : Rect S200x32 := Rect.unit (s := S200x32) ![0, 0] S200x32.size inb_S200x32_S200x32_0_0

/-- What the body leaves in the product's staging buffer: its one store, of the matrix product (into a zero
    accumulator) of the two loaded blocks, each first narrowed to bf16. -/
def outBlock (x0 : Vec F S200x10000 .f32) (x1 : Vec F S10000x32 .f32) : Vec F S200x32 .f32 :=
  View.canon [⟨rO, k0_pay1 (View.ld x0 rX) (View.ld x1 rW)⟩]

/-- The one store covers the buffer. -/
theorem cover_out (p0 : Vec F S200x32 .f32) (y : S200x32.Idx) :
    ∃ pc ∈ ([⟨rO, p0⟩] : List (View.Piece (Elt F) S200x32 .f32)), y ∈ pc.1.set :=
  View.cover_of_tiled [⟨rO, p0⟩] S200x32.size (by rfl) y

set_option maxHeartbeats 4000000 in
/-- The body on whole staging buffers, the two inputs' at known contents and the output's at anything, runs to the
    continuation with the inputs' as they were and the output's at `outBlock` of them. (The body also loads the
    output buffer before it stores; the loaded value is not used.) -/
theorem sound_kernel (c : Dev nD) (E : Set ℕ) (i : grid0.Coords) (arg1 : Memref sig .tc .vmem S200x10000 .f32) (harg1 : arg1.IsWhole) (arg2 : Memref sig .tc .vmem S10000x32 .f32) (harg2 : arg2.IsWhole) (arg3 : Memref sig .tc .vmem S200x32 .f32) (harg3 : arg3.IsWhole)
    (x0 : Vec F S200x10000 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__matmul_bf16_kernel i arg1 harg1 arg2 harg2 arg3 harg3) K := by
  simp only [cc0__matmul_bf16_kernel_eq_skeleton]; unfold cc0__matmul_bf16_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- On core `c`: the arrays as the region finds them; after the body at point `t` each input's buffer at its block
    and the product's at `outBlock` of the two blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- From any memory with zero counters every weakly fair execution of the program terminates, and in every final
    state each of the region's three arrays holds what the proof data computes (an input its entry contents, the
    product the blocks the body left, written back point by point) and every other unscoped buffer what the later
    lines leave there. -/
theorem run_main : θ_run defs (onTc (τ := τ) (main (F := F))) (s₀ m ρ) (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- In a final state of the run every argument array is as launched: the two the region stages are inputs of it,
    never written back; the other seven bypass the region and no later line writes them. -/
theorem args_kept (r : PUnit × MemSt nD τ sig (Elt F))
    (h : Pipeline.FramePost cfgs (dats m) 0 (Pipeline.afterTail₀ cfgs (dats m) 0 (V0 m) laterOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).1 1).trans (((dats m 0 c).arrAt_in 1 rfl _).trans ((A_eq m c 1).trans (V_main_arg3 m c))),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c)⟩

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run_main m ρ)

end Cert.Kernel.Region

end
-- ==== Proof.Around.lean ====
/-
  The graph-convolution program around its one kernel region. Before the region the host computes, from the edge
  list alone, the source and destination node of every edge (the given edges followed by one self-loop per node)
  and the symmetric normalisation 1/sqrt(deg src) * 1/sqrt(deg dst); the region multiplies the feature matrix by
  the first weight matrix, 200 rows at a time; after the region the host gathers, scales, scatter-adds and adds the
  bias (twice: 32 then 16 features), gathers the two rows of every candidate pair, and applies the logistic head.

  This module is about the lines around the region only: the contents every buffer holds when the region is
  entered (the lines before it applied to the launch contents), that the program is those lines, the region, and
  the later lines in order, that the later lines write only their own result buffers (never one of the three
  arrays the region stages, never an argument), and hence that each of the nine arguments is found by the region,
  and left at the end, exactly as launched.
-/
import proofs.«158041_j62182536511521_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before and after the region -/

/-- Core `c`'s buffer contents when the region is entered: the 33 lines before it (edge endpoints, degrees,
    normalisation) applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, in their three stretches: the first aggregation up to the bias, the rectifier
    (a called function, three lines), and everything from the second product to the logistic head. -/
abbrev laterOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is the lines before the region, the region, and the later lines: so it reduces to the region
    continued by the later lines, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] hostOps0_sub hostOps0_fresh main_chain

/-- The later lines touch only unscoped TensorCore buffers: the region's arrays and the buffers that bypass it. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes one buffer, its own result; stretch by stretch, none of those is one of the three arrays the
    region stages (the feature matrix, the first weight matrix, the product). -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; refine StableHlo.devRef_ne_of_ne ?_; revert w; decide)

theorem later_keeps : ∀ ops ∈ (laterOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The arguments, before and after -/

/-- No line before the region writes the named buffer: each line's one written buffer is another reference. -/
local macro "before_untouched" : tactic => `(tactic| (
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No line after the region writes the named buffer. -/
local macro "later_untouched" : tactic => `(tactic| (
  simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by before_untouched))
theorem V_main_arg1 (c : Dev nD) : V m c main_arg1 = m ((c : Thread nD τ).loc main_arg1) :=
  StableHlo.after_of_forall_not_mem (b := Proc.devRef .tc main_arg1) _ _ (List.forall_iff_forall_mem.mp (by before_untouched))
theorem V_main_arg2 (c : Dev nD) : V m c main_arg2 = m ((c : Thread nD τ).loc main_arg2) :=
  StableHlo.after_of_forall_not_mem (b := Proc.devRef .tc main_arg2) _ _ (List.forall_iff_forall_mem.mp (by before_untouched))
theorem V_main_arg3 (c : Dev nD) : V m c main_arg3 = m ((c : Thread nD τ).loc main_arg3) :=
  StableHlo.after_of_forall_not_mem (b := Proc.devRef .tc main_arg3) _ _ (List.forall_iff_forall_mem.mp (by before_untouched))
theorem V_main_arg4 (c : Dev nD) : V m c main_arg4 = m ((c : Thread nD τ).loc main_arg4) :=
  StableHlo.after_of_forall_not_mem (b := Proc.devRef .tc main_arg4) _ _ (List.forall_iff_forall_mem.mp (by before_untouched))
theorem V_main_arg5 (c : Dev nD) : V m c main_arg5 = m ((c : Thread nD τ).loc main_arg5) :=
  StableHlo.after_of_forall_not_mem (b := Proc.devRef .tc main_arg5) _ _ (List.forall_iff_forall_mem.mp (by before_untouched))
theorem V_main_arg6 (c : Dev nD) : V m c main_arg6 = m ((c : Thread nD τ).loc main_arg6) :=
  StableHlo.after_of_forall_not_mem (b := Proc.devRef .tc main_arg6) _ _ (List.forall_iff_forall_mem.mp (by before_untouched))
theorem V_main_arg7 (c : Dev nD) : V m c main_arg7 = m ((c : Thread nD τ).loc main_arg7) :=
  StableHlo.after_of_forall_not_mem (b := Proc.devRef .tc main_arg7) _ _ (List.forall_iff_forall_mem.mp (by before_untouched))
theorem V_main_arg8 (c : Dev nD) : V m c main_arg8 = m ((c : Thread nD τ).loc main_arg8) :=
  StableHlo.after_of_forall_not_mem (b := Proc.devRef .tc main_arg8) _ _ (List.forall_iff_forall_mem.mp (by before_untouched))

/-- An argument the region does not stage ends as launched: no later line writes it, it is none of the region's
    arrays, and no line before the region wrote it. (The feature matrix and the first weight matrix ARE staged:
    they are read back through the region's own account of its input arrays instead.) -/
theorem W_main_arg1 (dats : (p : Fin 1) → (c : Dev nD) → Dat τ (Elt F) Unit ℕ (UR sig nD τ) ℕ (cfgs p) c) (c : Dev nD) :
    Pipeline.afterTail₀ cfgs dats 0 (V0 m) laterOps c main_arg1 = m ((c : Thread nD τ).loc main_arg1) := by
  unfold Pipeline.afterTail₀
  rw [StableHlo.after_of_forall_not_mem (b := Proc.devRef .tc main_arg1) _ _ (List.forall_iff_forall_mem.mp (by later_untouched)),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) laterOps c main_arg2 = m ((c : Thread nD τ).loc main_arg2) := by
  unfold Pipeline.afterTail₀
  rw [StableHlo.after_of_forall_not_mem (b := Proc.devRef .tc main_arg2) _ _ (List.forall_iff_forall_mem.mp (by later_untouched)),
    Pipeline.withArrays_of_ne _ c (V0 m c) _ main_arg2 (by exact (by decide : ∀ w, Pipeline.arrRef spec0 w ≠ main_arg2))]
  exact V_main_arg2 m c
theorem W_main_arg4 (dats : (p : Fin 1) → (c : Dev nD) → Dat τ (Elt F) Unit ℕ (UR sig nD τ) ℕ (cfgs p) c) (c : Dev nD) :
    Pipeline.afterTail₀ cfgs dats 0 (V0 m) laterOps c main_arg4 = m ((c : Thread nD τ).loc main_arg4) := by
  unfold Pipeline.afterTail₀
  rw [StableHlo.after_of_forall_not_mem (b := Proc.devRef .tc main_arg4) _ _ (List.forall_iff_forall_mem.mp (by later_untouched)),
    Pipeline.withArrays_of_ne _ c (V0 m c) _ main_arg4 (by exact (by decide : ∀ w, Pipeline.arrRef spec0 w ≠ main_arg4))]
  exact V_main_arg4 m c
theorem W_main_arg5 (dats : (p : Fin 1) → (c : Dev nD) → Dat τ (Elt F) Unit ℕ (UR sig nD τ) ℕ (cfgs p) c) (c : Dev nD) :
    Pipeline.afterTail₀ cfgs dats 0 (V0 m) laterOps c main_arg5 = m ((c : Thread nD τ).loc main_arg5) := by
  unfold Pipeline.afterTail₀
  rw [StableHlo.after_of_forall_not_mem (b := Proc.devRef .tc main_arg5) _ _ (List.forall_iff_forall_mem.mp (by later_untouched)),
    Pipeline.withArrays_of_ne _ c (V0 m c) _ main_arg5 (by exact (by decide : ∀ w, Pipeline.arrRef spec0 w ≠ main_arg5))]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) laterOps c main_arg6 = m ((c : Thread nD τ).loc main_arg6) := by
  unfold Pipeline.afterTail₀
  rw [StableHlo.after_of_forall_not_mem (b := Proc.devRef .tc main_arg6) _ _ (List.forall_iff_forall_mem.mp (by later_untouched)),
    Pipeline.withArrays_of_ne _ c (V0 m c) _ main_arg6 (by exact (by decide : ∀ w, Pipeline.arrRef spec0 w ≠ main_arg6))]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) laterOps c main_arg7 = m ((c : Thread nD τ).loc main_arg7) := by
  unfold Pipeline.afterTail₀
  rw [StableHlo.after_of_forall_not_mem (b := Proc.devRef .tc main_arg7) _ _ (List.forall_iff_forall_mem.mp (by later_untouched)),
    Pipeline.withArrays_of_ne _ c (V0 m c) _ main_arg7 (by exact (by decide : ∀ w, Pipeline.arrRef spec0 w ≠ main_arg7))]
  exact V_main_arg7 m c
theorem W_main_arg8 (dats : (p : Fin 1) → (c : Dev nD) → Dat τ (Elt F) Unit ℕ (UR sig nD τ) ℕ (cfgs p) c) (c : Dev nD) :
    Pipeline.afterTail₀ cfgs dats 0 (V0 m) laterOps c main_arg8 = m ((c : Thread nD τ).loc main_arg8) := by
  unfold Pipeline.afterTail₀
  rw [StableHlo.after_of_forall_not_mem (b := Proc.devRef .tc main_arg8) _ _ (List.forall_iff_forall_mem.mp (by later_untouched)),
    Pipeline.withArrays_of_ne _ c (V0 m c) _ main_arg8 (by exact (by decide : ∀ w, Pipeline.arrRef spec0 w ≠ main_arg8))]
  exact V_main_arg8 m c

end Cert.KernelIdeal.Around

end
-- ==== Proof.Region.lean ====
/-
  The kernel region itself: one grid point multiplies a block of 200 rows of the feature matrix (all 10000
  columns) by the whole first weight matrix (10000 by 32) and stores the 200 by 32 product; fifty points cover the
  10000 rows. The feature block is fetched at every point, the weight matrix once (its block index never moves),
  the product block is written back at every point.

  Here: what the body leaves in the product's staging buffer as a function of the two input blocks, the body's
  Hoare triple, the region's proof data (each input buffer holds its block, the output buffer the product of the
  blocks), the body obligation at a generic point, the run of the whole program to the library's frame post, and
  from it the statement that every argument array ends as launched.
-/
import proofs.«158041_j62182536511521_1_alg».proof.Proof.Around
import proofs.«158041_j62182536511521_1_alg».proof.Proof.Gen.KernelIdeal.Skeleton
import proofs.«158041_j62182536511521_1_alg».proof.Proof.Gen.KernelIdeal.Points
import Idealize.ShloMosaic.Lib.Ring
import Idealize.ShloMosaic.Lib.Tactic

set_option maxRecDepth 16384

noncomputable section

namespace Cert.KernelIdeal.Region

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature matrix's staging buffer holds the point's 200 rows at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight matrix's staging buffer holds the whole matrix at every point: fetched at the first, and at a later
    point the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 200 by 10000 staging buffer, the whole 10000 by 32 one, the whole 200 by 32 one: the body's three
    accesses are of whole buffers. -/
abbrev rX : Rect S200x10000 := Rect.unit (s := S200x10000) ![0, 0] S200x10000.size inb_S200x10000_S200x10000_0_0
abbrev rW : Rect S10000x32 := Rect.unit (s := S10000x32) ![0, 0] S10000x32.size inb_S10000x32_S10000x32_0_0
abbrev rO : Rect S200x32 := Rect.unit (s := S200x32) ![0, 0] S200x32.size inb_S200x32_S200x32_0_0

/-- What the body leaves in the product's staging buffer: its one store, of the matrix product (into a zero
    accumulator) of the two loaded blocks, each first narrowed to bf16. -/
def outBlock (x0 : Vec F S200x10000 .f32) (x1 : Vec F S10000x32 .f32) : Vec F S200x32 .f32 :=
  View.canon [⟨rO, k0_pay1 (View.ld x0 rX) (View.ld x1 rW)⟩]

/-- The one store covers the buffer. -/
theorem cover_out (p0 : Vec F S200x32 .f32) (y : S200x32.Idx) :
    ∃ pc ∈ ([⟨rO, p0⟩] : List (View.Piece (Elt F) S200x32 .f32)), y ∈ pc.1.set :=
  View.cover_of_tiled [⟨rO, p0⟩] S200x32.size (by rfl) y

set_option maxHeartbeats 4000000 in
/-- The body on whole staging buffers, the two inputs' at known contents and the output's at anything, runs to the
    continuation with the inputs' as they were and the output's at `outBlock` of them. (The body also loads the
    output buffer before it stores; the loaded value is not used.) -/
theorem sound_kernel (c : Dev nD) (E : Set ℕ) (i : grid0.Coords) (arg1 : Memref sig .tc .vmem S200x10000 .f32) (harg1 : arg1.IsWhole) (arg2 : Memref sig .tc .vmem S10000x32 .f32) (harg2 : arg2.IsWhole) (arg3 : Memref sig .tc .vmem S200x32 .f32) (harg3 : arg3.IsWhole)
    (x0 : Vec F S200x10000 .f32) (x1 : Vec F S10000x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__matmul_bf16_kernel i arg1 harg1 arg2 harg2 arg3 harg3) K := by
  simp only [cc0__matmul_bf16_kernel_eq_skeleton]; unfold cc0__matmul_bf16_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- On core `c`: the arrays as the region finds them; after the body at point `t` each input's buffer at its block
    and the product's at `outBlock` of the two blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- From any memory with zero counters every weakly fair execution of the program terminates, and in every final
    state each of the region's three arrays holds what the proof data computes (an input its entry contents, the
    product the blocks the body left, written back point by point) and every other unscoped buffer what the later
    lines leave there. -/
theorem run_main : θ_run defs (onTc (τ := τ) (main (F := F))) (s₀ m ρ) (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- In a final state of the run every argument array is as launched: the two the region stages are inputs of it,
    never written back; the other seven bypass the region and no later line writes them. -/
theorem args_kept (r : PUnit × MemSt nD τ sig (Elt F))
    (h : Pipeline.FramePost cfgs (dats m) 0 (Pipeline.afterTail₀ cfgs (dats m) 0 (V0 m) laterOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).1 1).trans (((dats m 0 c).arrAt_in 1 rfl _).trans ((A_eq m c 1).trans (V_main_arg3 m c))),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c)⟩

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run_main m ρ)

end Cert.KernelIdeal.Region

end
-- ==== Proof.Product.lean ====
/-
  What the region leaves in the product array, at the exact (extended-real) reading of the floats.

  At that reading narrowing to bf16 is the identity and the matrix unit's product into a zero accumulator is the
  plain sum over the contracted axis. So the block stored at a grid point is, entry (p, q), the sum over k of the
  feature block's (p, k) times the weight matrix's (k, q). The feature block at point t is rows 200 t .. 200 t + 199
  of the feature matrix (all columns), the weight block is the whole weight matrix at every point, and the stored
  block lands on rows 200 t .. 200 t + 199 of the product array. The fifty row blocks cover all 10000 rows, so the
  array ends, entry (r, q), at the sum over k of feature (r, k) times weight (k, q): the full matrix product.
-/
import proofs.«158041_j62182536511521_1_alg».proof.Proof.Region
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Cert.KernelIdeal.Around Cert.KernelIdeal.Region
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The full product, index by index -/

/-- Row of `i`, column `k`, of the feature matrix. -/
abbrev featAt (i : S10000x32.Idx) (k : Fin 10000) : S10000x10000.Idx := fun a => match a with
  | ⟨0, _⟩ => ⟨(i 0).val, (i 0).isLt⟩
  | ⟨1, _⟩ => ⟨k.val, k.isLt⟩
/-- Row `k`, column of `i`, of the weight matrix. -/
abbrev wgtAt (i : S10000x32.Idx) (k : Fin 10000) : S10000x32.Idx := fun a => match a with
  | ⟨0, _⟩ => ⟨k.val, k.isLt⟩
  | ⟨1, _⟩ => ⟨(i 1).val, (i 1).isLt⟩

/-- The matrix product of a 10000 by 10000 array with a 10000 by 32 one, entry by entry. -/
def rowsTimes (x : S10000x10000.Idx → Elt Ideal .f32) (w : S10000x32.Idx → Elt Ideal .f32) : S10000x32.Idx → Elt Ideal .f32 :=
  fun i => ∑ k : Fin 10000, x (featAt i k) * w (wgtAt i k)

/-! ## The body's payload at an index of the block -/

/-- Row of `j`, column `k`, of the 200-row feature block; row `k`, column of `j`, of the weight block. -/
abbrev featBlkAt (j : S200x32.Idx) (k : Fin 10000) : S200x10000.Idx := fun a => match a with
  | ⟨0, _⟩ => ⟨(j 0).val, (j 0).isLt⟩
  | ⟨1, _⟩ => ⟨k.val, k.isLt⟩
abbrev wgtBlkAt (j : S200x32.Idx) (k : Fin 10000) : S10000x32.Idx := fun a => match a with
  | ⟨0, _⟩ => ⟨k.val, k.isLt⟩
  | ⟨1, _⟩ => ⟨(j 1).val, (j 1).isLt⟩

/-- The product's operand indices, axis by axis: the left operand is read at (row of the output, contraction
    index), the right one at (contraction index, column of the output). -/
theorem lhs_axis0 (j : S200x32.Idx) (q : dot_S200x10000_S10000x32_S200x32_1_0_0_1_n_n.contr.Idx) :
    (dot_S200x10000_S10000x32_S200x32_1_0_0_1_n_n.lhsIdx j q 0).val = (j 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
theorem lhs_axis1 (j : S200x32.Idx) (q : dot_S200x10000_S10000x32_S200x32_1_0_0_1_n_n.contr.Idx) :
    (dot_S200x10000_S10000x32_S200x32_1_0_0_1_n_n.lhsIdx j q 1).val = (q ⟨0, by decide⟩).val :=
  dot_S200x10000_S10000x32_S200x32_1_0_0_1_n_n.lhsIdx_val_of_single rfl j q
theorem rhs_axis0 (j : S200x32.Idx) (q : dot_S200x10000_S10000x32_S200x32_1_0_0_1_n_n.contr.Idx) :
    (dot_S200x10000_S10000x32_S200x32_1_0_0_1_n_n.rhsIdx j q 0).val = (q ⟨0, by decide⟩).val :=
  dot_S200x10000_S10000x32_S200x32_1_0_0_1_n_n.rhsIdx_val_of_single rfl j q
theorem rhs_axis1 (j : S200x32.Idx) (q : dot_S200x10000_S10000x32_S200x32_1_0_0_1_n_n.contr.Idx) :
    (dot_S200x10000_S10000x32_S200x32_1_0_0_1_n_n.rhsIdx j q 1).val = (j 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl

/-- The stored value at entry `j` of the block: narrowing is the identity, the product into zero is the sum over
    the 10000 contraction indices. -/
theorem payload_apply (x0 : Vec Ideal S200x10000 .f32) (x1 : Vec Ideal S10000x32 .f32) (j : S200x32.Idx) :
    k0_pay1 (F := Ideal) x0 x1 j = ∑ k : Fin 10000, x0 (featBlkAt j k) * x1 (wgtBlkAt j k) := by
  refine (Ideal.matmul_constant_zero_apply (φ₁ := .bf16) (φ₂ := .bf16) dot_S200x10000_S10000x32_S200x32_1_0_0_1_n_n none x0 x1 j).trans ?_
  rw [← Equiv.sum_comp (ValueIdx.contrEquiv1 dot_S200x10000_S10000x32_S200x32_1_0_0_1_n_n 10000 rfl rfl).symm]
  refine Finset.sum_congr rfl fun k _ => ?_
  have hk := ValueIdx.contrEquiv1_symm_val dot_S200x10000_S10000x32_S200x32_1_0_0_1_n_n 10000 rfl rfl k
  have el : dot_S200x10000_S10000x32_S200x32_1_0_0_1_n_n.lhsIdx j ((ValueIdx.contrEquiv1 dot_S200x10000_S10000x32_S200x32_1_0_0_1_n_n 10000 rfl rfl).symm k) = featBlkAt j k := funext fun a => Fin.ext (by
    match a with
    | ⟨0, _⟩ => exact lhs_axis0 _ _
    | ⟨1, _⟩ => exact (lhs_axis1 _ _).trans hk)
  have er : dot_S200x10000_S10000x32_S200x32_1_0_0_1_n_n.rhsIdx j ((ValueIdx.contrEquiv1 dot_S200x10000_S10000x32_S200x32_1_0_0_1_n_n 10000 rfl rfl).symm k) = wgtBlkAt j k := funext fun a => Fin.ext (by
    match a with
    | ⟨0, _⟩ => exact (rhs_axis0 _ _).trans hk
    | ⟨1, _⟩ => exact rhs_axis1 _ _)
  rw [el, er]

/-! ## What a point writes back -/

/-- The feature matrix and the first weight matrix as the region finds them, at their literal types. -/
abbrev featArr (c : Dev nD) : S10000x10000.Idx → Elt Ideal .f32 := V m c main_arg0
abbrev wgtArr (c : Dev nD) : S10000x32.Idx → Elt Ideal .f32 := V m c main_arg3

theorem origin_zero : (![0, 0] : Fin 2 → Nat) = fun _ => 0 := funext fun a => by fin_cases a <;> rfl

/-- The three index maps over the grid: the feature window and the product window move together down the rows
    (block t at point t), neither moves along the columns, and the weight window never moves. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the full product of the two argument arrays as the region finds them. -/
theorem flushed_product (c : Dev nD) (t : Fin cfg0.N) :
    (dats m 0 c).flushed 2 t = ((cfg0.win 2).blk t).view.read (Elt Ideal) (rowsTimes (featArr m c) (wgtArr m c)) := by
  show (cfg0.win 2).cut (grid0.coords t) ((dats m 0 c).after 2 t) = _
  rw [after0_2]
  unfold outBlock
  rw [View.canon_unit_zero origin_zero]
  simp only [View.ld_unit_zero (S := S200x10000) origin_zero, View.ld_unit_zero (S := S10000x32) origin_zero]
  obtain ⟨e0, e1, e2, e3, e4, e5⟩ := index_facts t
  funext j
  show k0_pay1 (F := Ideal) (iblk m c 0 t) (iblk m c 1 t) j = rowsTimes (featArr m c) (wgtArr m c) (((cfg0.win 2).blk t).view.emb j)
  refine (payload_apply (iblk m c 0 t) (iblk m c 1 t) j).trans ?_
  unfold rowsTimes
  refine Finset.sum_congr rfl fun k _ => ?_
  show featArr m c (((cfg0.win 0).blk t).view.emb (featBlkAt j k)) * wgtArr m c (((cfg0.win 1).blk t).view.emb (wgtBlkAt j k))
      = featArr m c (featAt (((cfg0.win 2).blk t).view.emb j) k) * wgtArr m c (wgtAt (((cfg0.win 2).blk t).view.emb j) k)
  have h0 : ((cfg0.win 0).blk t).view.emb (featBlkAt j k) = featAt (((cfg0.win 2).blk t).view.emb j) k := by
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  have h1 : ((cfg0.win 1).blk t).view.emb (wgtBlkAt j k) = wgtAt (((cfg0.win 2).blk t).view.emb j) k := by
    funext a; apply Fin.ext
    match a with
    | ⟨0, _⟩ => show win0_1.index t (0 : Fin 2) * 10000 + 1 * k.val = k.val; omega
    | ⟨1, _⟩ => show win0_1.index t (1 : Fin 2) * 32 + 1 * (j 1).val = win0_2.index t (1 : Fin 2) * 32 + 1 * (j 1).val; omega
  rw [h0, h1]

/-! ## The fifty row blocks cover the array -/

/-- An index is in point `t`'s block iff each coordinate is in the block's range on its axis. -/
theorem mem_block (t : Fin cfg0.N) (i : S10000x32.Idx) :
    i ∈ ((cfg0.win 2).blk t).view.set ↔ ∀ a : Fin 2, win0_2.index t a * S200x32.size a ≤ (i a).val ∧ (i a).val < win0_2.index t a * S200x32.size a + S200x32.size a := by
  show i ∈ ((View.whole main_v27).slice (win0_2.rect t)).set ↔ _
  rw [View.set_slice_whole, Rect.mem_set_unit]
  exact Iff.rfl

/-- Row r lies in the block of point r / 200. -/
theorem covered (i : S10000x32.Idx) :
    ∃ t : Fin cfg0.N, (cfg0.win 2).flush t = true ∧ i ∈ ((cfg0.win 2).blk t).view.set := by
  have hi0 : (i 0).val < 10000 := (i 0).isLt
  have hi1 : (i 1).val < 32 := (i 1).isLt
  have hN : cfg0.N = 50 := N_0
  have hlt : (i 0).val / 200 < cfg0.N := by omega
  obtain ⟨e0, e1, e2, e3, e4, e5⟩ := index_facts ⟨(i 0).val / 200, hlt⟩
  refine ⟨⟨(i 0).val / 200, hlt⟩, flush0_2 _, ?_⟩
  rw [mem_block]
  intro a
  match a with
  | ⟨0, _⟩ =>
    show win0_2.index ⟨(i 0).val / 200, hlt⟩ (0 : Fin 2) * 200 ≤ (i 0).val ∧ (i 0).val < win0_2.index ⟨(i 0).val / 200, hlt⟩ (0 : Fin 2) * 200 + 200
    have e5' : win0_2.index ⟨(i 0).val / 200, hlt⟩ (0 : Fin 2) = (i 0).val / 200 := e5
    omega
  | ⟨1, _⟩ =>
    show win0_2.index ⟨(i 0).val / 200, hlt⟩ (1 : Fin 2) * 32 ≤ (i 1).val ∧ (i 1).val < win0_2.index ⟨(i 0).val / 200, hlt⟩ (1 : Fin 2) * 32 + 32
    omega

/-- The product array after the run is the full matrix product of the feature matrix and the first weight matrix
    as the region found them. -/
theorem final_product (c : Dev nD) :
    (dats m 0 c).arrAt 2 cfg0.N = rowsTimes (featArr m c) (wgtArr m c) :=
  (dats m 0 c).arrAt_eq_of_cover 2 (rowsTimes (featArr m c) (wgtArr m c)) (fun t _ => flushed_product m c t) covered

end Cert.KernelIdeal.Product

end
-- ==== Proof.Bridge.lean ====
/-
  The kernel's program against the reference, at the exact reading of the floats.

  The two programs are the same host lines except for one value: where the reference multiplies the feature matrix
  by the first weight matrix in one host product, the kernel's program reads the array its region produced. The
  region's array IS that product (the fifty row blocks of it), so from there on the two programs apply the same
  operations to the same values: gather the product's rows by source node, scale by the edge normalisation,
  scatter-add by destination node, add the bias, rectify; the same again with the second weight matrix; gather the
  two rows of every candidate pair, concatenate, multiply by the head's weights, add its bias, and apply
  1 / (1 + exp (-z)). (The reference recomputes the edge endpoints and the normalisation for its second layer; they
  are the same functions of the edge list.) The reference's value is taken stage by stage from its read-back.
-/
import proofs.«158041_j62182536511521_1_alg».proof.Proof.Product
import proofs.«158041_j62182536511521_1_alg».proof.Proof.Gen.ReferenceIdeal.Read
import Idealize.ShloMosaic.Lib.StableHlo.Run

set_option maxRecDepth 16384
-- one theorem at a time: the comparisons against the reference's stages are the module's memory peaks
set_option Elab.async false

noncomputable section

namespace Cert.KernelIdeal.Bridge

open Cert.KernelIdeal Cert.KernelIdeal.Gen Cert.KernelIdeal.Around Cert.KernelIdeal.Region Cert.KernelIdeal.Product
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The product array is the reference's host product -/

/-- Entry by entry both are the sum over k of feature (r, k) times weight (k, q). -/
theorem rowsTimes_eq (x : S10000x10000.Idx → Elt Ideal .f32) (w : S10000x32.Idx → Elt Ideal .f32) :
    rowsTimes x w = Cert.ReferenceIdeal.Read.val_main_v27 (F := Ideal) x w := by
  funext i
  rw [Cert.ReferenceIdeal.Read.val_main_v27_apply]
  rfl

/-! ## What the later lines start from -/

/-- The edge endpoints and the normalisation the lines before the region computed are the reference's. -/
theorem entry_src (c : Dev nD) : V m c main_v3 = Cert.ReferenceIdeal.Read.val_main_v3 (F := Ideal) (m ((c.tc : Thread nD τ).loc main_arg1)) := by
  show StableHlo.after hostOps0 (fun b => m (c, b)) (Proc.devRef .tc main_v3) = _
  after_results_simp
  rfl
theorem entry_dst (c : Dev nD) : V m c main_v6 = Cert.ReferenceIdeal.Read.val_main_v6 (F := Ideal) (m ((c.tc : Thread nD τ).loc main_arg1)) := by
  show StableHlo.after hostOps0 (fun b => m (c, b)) (Proc.devRef .tc main_v6) = _
  after_results_simp
  rfl
set_option maxHeartbeats 4000000 in
theorem entry_norm (c : Dev nD) : V m c main_v26 = Cert.ReferenceIdeal.Read.val_main_v26 (F := Ideal) (m ((c.tc : Thread nD τ).loc main_arg1)) := by
  show StableHlo.after hostOps0 (fun b => m (c, b)) (Proc.devRef .tc main_v26) = _
  after_results_simp
  rfl

/-- The contents the later lines start from: the region's arrays as the region left them, every other buffer as
    the region found it. -/
abbrev exitVal (c : Dev nD) : Valuation τ sig (Elt Ideal) :=
  Pipeline.withArrays (cfgs 0).spec c (V0 m c) (fun w => (dats m 0 c).arrAt w (cfgs 0).N)

theorem exit_product (c : Dev nD) :
    exitVal m c (Proc.devRef .tc main_v27) = Cert.ReferenceIdeal.Read.val_main_v27 (F := Ideal) (m ((c.tc : Thread nD τ).loc main_arg0)) (m ((c.tc : Thread nD τ).loc main_arg3)) :=
  (Pipeline.withArrays_arr spec0 launch0.win.arr_inj c _ _ 2).trans
    ((final_product m c).trans ((rowsTimes_eq _ _).trans (by rw [featArr, wgtArr, V_main_arg0, V_main_arg3])))
theorem exit_src (c : Dev nD) : exitVal m c (Proc.devRef .tc main_v3) = Cert.ReferenceIdeal.Read.val_main_v3 (F := Ideal) (m ((c.tc : Thread nD τ).loc main_arg1)) :=
  (Pipeline.withArrays_of_ne spec0 c (V0 m c) _ main_v3 (by decide)).trans (entry_src m c)
theorem exit_dst (c : Dev nD) : exitVal m c (Proc.devRef .tc main_v6) = Cert.ReferenceIdeal.Read.val_main_v6 (F := Ideal) (m ((c.tc : Thread nD τ).loc main_arg1)) :=
  (Pipeline.withArrays_of_ne spec0 c (V0 m c) _ main_v6 (by decide)).trans (entry_dst m c)
theorem exit_norm (c : Dev nD) : exitVal m c (Proc.devRef .tc main_v26) = Cert.ReferenceIdeal.Read.val_main_v26 (F := Ideal) (m ((c.tc : Thread nD τ).loc main_arg1)) :=
  (Pipeline.withArrays_of_ne spec0 c (V0 m c) _ main_v26 (by decide)).trans (entry_norm m c)
theorem exit_arg2 (c : Dev nD) : exitVal m c (Proc.devRef .tc main_arg2) = m ((c.tc : Thread nD τ).loc main_arg2) :=
  (Pipeline.withArrays_of_ne spec0 c (V0 m c) _ main_arg2 (by decide)).trans (V_main_arg2 m c)
theorem exit_arg4 (c : Dev nD) : exitVal m c (Proc.devRef .tc main_arg4) = m ((c.tc : Thread nD τ).loc main_arg4) :=
  (Pipeline.withArrays_of_ne spec0 c (V0 m c) _ main_arg4 (by decide)).trans (V_main_arg4 m c)
theorem exit_arg5 (c : Dev nD) : exitVal m c (Proc.devRef .tc main_arg5) = m ((c.tc : Thread nD τ).loc main_arg5) :=
  (Pipeline.withArrays_of_ne spec0 c (V0 m c) _ main_arg5 (by decide)).trans (V_main_arg5 m c)
theorem exit_arg6 (c : Dev nD) : exitVal m c (Proc.devRef .tc main_arg6) = m ((c.tc : Thread nD τ).loc main_arg6) :=
  (Pipeline.withArrays_of_ne spec0 c (V0 m c) _ main_arg6 (by decide)).trans (V_main_arg6 m c)
theorem exit_arg7 (c : Dev nD) : exitVal m c (Proc.devRef .tc main_arg7) = m ((c.tc : Thread nD τ).loc main_arg7) :=
  (Pipeline.withArrays_of_ne spec0 c (V0 m c) _ main_arg7 (by decide)).trans (V_main_arg7 m c)
theorem exit_arg8 (c : Dev nD) : exitVal m c (Proc.devRef .tc main_arg8) = m ((c.tc : Thread nD τ).loc main_arg8) :=
  (Pipeline.withArrays_of_ne spec0 c (V0 m c) _ main_arg8 (by decide)).trans (V_main_arg8 m c)

/-! ## The later lines, cut where the two gathered blocks are joined -/

/-- Running one list of lines after another is running their concatenation. -/
theorem after_append (l1 l2 : List (HloOp τ sig (Elt Ideal))) (W : Valuation τ sig (Elt Ideal)) :
    StableHlo.after (l1 ++ l2) W = StableHlo.after l2 (StableHlo.after l1 W) := by
  induction l1 generalizing W with
  | nil => rfl
  | cons op ops ih => exact ih (op.result W)

/-- The contents just before the rows gathered for a pair's two nodes are joined: everything up to and including
    the second gather (the first 64 of the 77 later lines). -/
def beforeJoin (c : Dev nD) : Valuation τ sig (Elt Ideal) :=
  StableHlo.after (hostOps1 ++ (hostOps1_1 ++ hostOps1_2.take 42)) (exitVal m c)

/-- The later lines are those 64 followed by the last 13 (join, head product, bias, logistic). -/
theorem tail_cut (c : Dev nD) :
    Pipeline.afterTail₀ cfgs (dats m) 0 (V0 m) laterOps c main_v90
      = StableHlo.after (hostOps1_2.drop 42) (beforeJoin m c) (Proc.devRef .tc main_v90) := by
  unfold Pipeline.afterTail₀ beforeJoin
  have hs : (laterOps : List (List (HloOp τ sig (Elt Ideal)))).flatten
      = (hostOps1 ++ (hostOps1_1 ++ hostOps1_2.take 42)) ++ hostOps1_2.drop 42 := by
    simp only [laterOps, List.flatten_cons, List.flatten_nil, List.append_nil, List.append_assoc, List.take_append_drop]
  rw [hs, after_append]

set_option maxHeartbeats 64000000 in
/-- The rows of the second layer's output gathered at each pair's first node are the reference's. -/
theorem join_left (c : Dev nD) :
    beforeJoin m c (Proc.devRef .tc main_v70) = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold beforeJoin
  simp only [hostOps1, hostOps1_1, hostOps1_2, List.take_succ_cons, List.take_zero, List.cons_append, List.nil_append, List.append_nil]
  after_results_simp
  simp only [exit_product m c, exit_src m c, exit_dst m c, exit_norm m c, exit_arg2 m c, exit_arg4 m c, exit_arg5 m c, exit_arg6 m c]
  rfl

set_option maxHeartbeats 64000000 in
/-- And at each pair's second node. -/
theorem join_right (c : Dev nD) :
    beforeJoin m c (Proc.devRef .tc main_v79) = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold beforeJoin
  simp only [hostOps1, hostOps1_1, hostOps1_2, List.take_succ_cons, List.take_zero, List.cons_append, List.nil_append, List.append_nil]
  after_results_simp
  simp only [exit_product m c, exit_src m c, exit_dst m c, exit_norm m c, exit_arg2 m c, exit_arg4 m c, exit_arg5 m c, exit_arg6 m c]
  rfl

set_option maxHeartbeats 16000000 in
/-- The head's weights and bias pass through those 64 lines untouched. -/
theorem join_arg7 (c : Dev nD) : beforeJoin m c (Proc.devRef .tc main_arg7) = m ((c.tc : Thread nD τ).loc main_arg7) := by
  unfold beforeJoin
  simp only [hostOps1, hostOps1_1, hostOps1_2, List.take_succ_cons, List.take_zero, List.cons_append, List.nil_append, List.append_nil]
  after_results_simp
  exact exit_arg7 m c
set_option maxHeartbeats 16000000 in
theorem join_arg8 (c : Dev nD) : beforeJoin m c (Proc.devRef .tc main_arg8) = m ((c.tc : Thread nD τ).loc main_arg8) := by
  unfold beforeJoin
  simp only [hostOps1, hostOps1_1, hostOps1_2, List.take_succ_cons, List.take_zero, List.cons_append, List.nil_append, List.append_nil]
  after_results_simp
  exact exit_arg8 m c

/-! ## The result -/

set_option maxHeartbeats 16000000 in
/-- The later lines, applied to the contents the region leaves, put in the result buffer the reference's last stage
    of the nine arguments. -/
theorem tail_value (c : Dev nD) :
    Pipeline.afterTail₀ cfgs (dats m) 0 (V0 m) laterOps c main_v90
      = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [tail_cut]
  simp only [hostOps1_2, List.drop_succ_cons, List.drop_zero]
  after_results_simp
  rw [join_left m c, join_right m c]
  simp only [join_arg7 m c, join_arg8 m c]
  rfl

/-! ## The run, with its result named -/

/-- Every weakly fair execution of the kernel's program ends with the result buffer at the reference's last stage of
    the nine arguments, and the arguments as launched. -/
theorem run_value : θ_run defs (onTc (τ := τ) (main (F := Ideal))) ⟨m, fun _ => 0, ρ⟩ (fun r => ∀ c : Dev nD,
      r.2.mem ((c.tc : Thread nD τ).loc main_v90)
        = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v90 (Pipeline.mem_restRefs_of main_v90 (by decide) (by decide))).trans (tail_value m c), args_kept m r h c⟩)
    (run_main m ρ)

end Cert.KernelIdeal.Bridge

end
-- ==== Proof.lean ====
/-
  A two-layer graph convolution with a link-prediction head, the first layer's dense product in a kernel.

  Both programs compute, from a feature matrix x (10000 by 10000), an edge list, a list of candidate node pairs and
  the weights, sigmoid ([h2[p0], h2[p1]] . Wfc + bfc) for every pair (p0, p1), where
    h1 = relu (A (x W1) + b1),   h2 = A (h1 W2) + b2,
  and A is the normalised aggregation over the given edges plus one self-loop per node: row d of A y is the sum
  over edges s -> d of y[s] / sqrt (deg s * deg d). The reference forms x W1 as one host product. The kernel's
  program forms it in a kernel region, fifty grid points of 200 rows each, narrowing both operands to bf16 before
  the matrix unit and accumulating in f32 from zero; every other line is the reference's.

  Read exactly (floats as extended reals, a change of format the identity, the matrix unit's product the plain sum
  over the contracted axis) the fifty row blocks are the rows of the one product, so the two programs agree entry by
  entry; the law that joins them is only that a matrix product restricted to a block of rows is the product of that
  block of rows, and no finiteness of the inputs is used. The frames: each program runs to the end, faults nowhere,
  and writes none of its nine arguments (every host line writes only its own result buffer; the region writes back
  only the product's array). The idealization rewrote no operation, so there is nothing to preserve.
-/
import proofs.«158041_j62182536511521_1_alg».proof.Defs
import proofs.«158041_j62182536511521_1_alg».proof.Proof.Gen.Kernel
import proofs.«158041_j62182536511521_1_alg».proof.Proof.Gen.Kernel.Skeleton
import proofs.«158041_j62182536511521_1_alg».proof.Proof.Gen.Kernel.Launch
import proofs.«158041_j62182536511521_1_alg».proof.Proof.Gen.Kernel.Points
import proofs.«158041_j62182536511521_1_alg».proof.Proof.Gen.KernelIdeal
import proofs.«158041_j62182536511521_1_alg».proof.Proof.Gen.KernelIdeal.Skeleton
import proofs.«158041_j62182536511521_1_alg».proof.Proof.Gen.KernelIdeal.Launch
import proofs.«158041_j62182536511521_1_alg».proof.Proof.Gen.KernelIdeal.Points
import proofs.«158041_j62182536511521_1_alg».proof.Proof.Gen.ReferenceIdeal
import proofs.«158041_j62182536511521_1_alg».proof.Proof.Gen.Pre_finite_inputs
import proofs.«158041_j62182536511521_1_alg».proof.Proof.Gen.ReferenceIdeal.Run
import proofs.«158041_j62182536511521_1_alg».proof.Proof.Gen.ReferenceIdeal.Read
import proofs.«158041_j62182536511521_1_alg».proof.Proof.BitsRegion
import proofs.«158041_j62182536511521_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Region.frame m ρ

/-- So does its exact reading. -/
theorem frame_kernelIdeal : Cert.frame_KernelIdeal := fun m ρ _ => Cert.KernelIdeal.Region.frame m ρ

/-- The reference is host lines only: its read-back run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the same result: the kernel's program at
    the reference's last stage of ITS arguments, the reference at that stage of its own, which are the same arrays. -/
theorem algebraic : Cert.algebraic_KernelIdeal_ReferenceIdeal := by
  intro m ρ m' ρ' _ hagree
  refine ⟨_, Cert.KernelIdeal.Bridge.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v117_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
